-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S32768x512 : Shape := ⟨2, ![32768, 512]⟩
abbrev S1x1 : Shape := ⟨2, ![1, 1]⟩
abbrev S2048x512 : Shape := ⟨2, ![2048, 512]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S32768x512, .f32⟩
  | .hbm, ⟨3, _⟩ => ⟨S32768x512, .f32⟩
  | .hbm, ⟨4, _⟩ => ⟨S1x1, .f32⟩
  | .hbm, ⟨5, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x1x512x512_S32768x512 : S64x1x512x512.ShapeCasts S32768x512
  inb_S1x1_S1x1_0_0 : ∀ a, (![0, 0] : Fin 2 → Nat) a + S1x1.size a ≤ S1x1.size a
  h_S1x1 : 0 < S1x1.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S16777216 : Shape := ⟨1, ![16777216]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .i1⟩
  | .hbm, ⟨9, _⟩ => ⟨S_, .f32⟩
  | .hbm, ⟨10, _⟩ => ⟨S16777216, .f32⟩
  | .hbm, ⟨11, _⟩ => ⟨S16777216, .i1⟩
  | .hbm, ⟨12, _⟩ => ⟨S16777216, .i1⟩
  | .hbm, ⟨13, _⟩ => ⟨S_, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .i1⟩
  | .hbm, ⟨20, _⟩ => ⟨S_, .f32⟩
  | .hbm, ⟨21, _⟩ => ⟨S16777216, .f32⟩
  | .hbm, ⟨22, _⟩ => ⟨S16777216, .i1⟩
  | .hbm, ⟨23, _⟩ => ⟨S16777216, .i1⟩
  | .hbm, ⟨24, _⟩ => ⟨S_, .f32⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S16777216, .f32⟩
  | .hbm, ⟨30, _⟩ => ⟨S16777216, .i1⟩
  | .hbm, ⟨31, _⟩ => ⟨S_, .f32⟩
  | .hbm, ⟨32, _⟩ => ⟨S16777216, .f32⟩
  | .hbm, ⟨33, _⟩ => ⟨S16777216, .i1⟩
  | .hbm, ⟨34, _⟩ => ⟨S16777216, .i1⟩
  | .hbm, ⟨35, _⟩ => ⟨S_, .f32⟩
  | .hbm, ⟨36, _⟩ => ⟨S_, .f32⟩
  | .hbm, ⟨37, _⟩ => ⟨S16777216, .f32⟩
  | .hbm, ⟨38, _⟩ => ⟨S16777216, .f32⟩
  | .hbm, ⟨39, _⟩ => ⟨S_, .f32⟩
  | .hbm, ⟨40, _⟩ => ⟨S16777216, .f32⟩
  | .hbm, ⟨41, _⟩ => ⟨S16777216, .i1⟩
  | .hbm, ⟨42, _⟩ => ⟨S_, .f32⟩
  | .hbm, ⟨43, _⟩ => ⟨S16777216, .f32⟩
  | .hbm, ⟨44, _⟩ => ⟨S16777216, .i1⟩
  | .hbm, ⟨45, _⟩ => ⟨S16777216, .i1⟩
  | .hbm, ⟨46, _⟩ => ⟨S_, .f32⟩
  | .hbm, ⟨47, _⟩ => ⟨S_, .f32⟩
  | .hbm, ⟨48, _⟩ => ⟨S16777216, .f32⟩
  | .hbm, ⟨49, _⟩ => ⟨S16777216, .f32⟩
  | .hbm, ⟨50, _⟩ => ⟨S_, .f32⟩
  | .hbm, ⟨51, _⟩ => ⟨S16777216, .f32⟩
  | .hbm, ⟨52, _⟩ => ⟨S16777216, .i1⟩
  | .hbm, ⟨53, _⟩ => ⟨S_, .f32⟩
  | .hbm, ⟨54, _⟩ => ⟨S_, .f32⟩
  | .hbm, ⟨55, _⟩ => ⟨S16777216, .f32⟩
  | .hbm, ⟨56, _⟩ => ⟨S16777216, .f32⟩
  | .hbm, ⟨57, _⟩ => ⟨S16777216, .f32⟩
  | .hbm, ⟨58, _⟩ => ⟨S16777216, .f32⟩
  | .hbm, ⟨59, _⟩ => ⟨S16777216, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_cst_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_8 : Ref sig .tc := ⟨.hbm, 35, rfl⟩
abbrev main_call2_v0 : Ref sig .tc := ⟨.hbm, 36, rfl⟩
abbrev main_call2_v1 : Ref sig .tc := ⟨.hbm, 37, rfl⟩
abbrev main_v20 : Ref sig .tc := ⟨.hbm, 38, rfl⟩
abbrev main_cst_9 : Ref sig .tc := ⟨.hbm, 39, rfl⟩
abbrev main_v21 : Ref sig .tc := ⟨.hbm, 40, rfl⟩
abbrev main_v22 : Ref sig .tc := ⟨.hbm, 41, rfl⟩
abbrev main_cst_10 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_11 : Ref sig .tc := ⟨.hbm, 46, rfl⟩
abbrev main_call3_v0 : Ref sig .tc := ⟨.hbm, 47, rfl⟩
abbrev main_call3_v1 : Ref sig .tc := ⟨.hbm, 48, rfl⟩
abbrev main_v26 : Ref sig .tc := ⟨.hbm, 49, rfl⟩
abbrev main_cst_12 : Ref sig .tc := ⟨.hbm, 50, rfl⟩
abbrev main_v27 : Ref sig .tc := ⟨.hbm, 51, rfl⟩
abbrev main_v28 : Ref sig .tc := ⟨.hbm, 52, rfl⟩
abbrev main_cst_13 : Ref sig .tc := ⟨.hbm, 53, rfl⟩
abbrev main_call4_v0 : Ref sig .tc := ⟨.hbm, 54, rfl⟩
abbrev main_call4_v1 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_14 : Ref sig .tc := ⟨.hbm, 60, rfl⟩
abbrev main_v33 : Ref sig .tc := ⟨.hbm, 61, rfl⟩
abbrev main_cst_15 : Ref sig .tc := ⟨.hbm, 62, rfl⟩
abbrev main_v34 : Ref sig .tc := ⟨.hbm, 63, rfl⟩

abbrev nD : Nat := 1
abbrev τ : Topo := Topo.v7x

variable {F : FTy → Type} [FloatOps F]

class Facts₀ : Prop where
  shapeCasts_S64x1x512x512_S16777216 : S64x1x512x512.ShapeCasts S16777216
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Spec.lean ====
/-
  The mathematics both programs share. Each label is given a bucket weight (1 on [0,20), 2 on [20,30), 5 on
  [30,40), 10 on [40,60), 30 from 60 on, 0 below zero: five selects, a later bucket overriding an earlier one), each
  element contributes weight(label) * (label - predict) * (label - predict), and the result is the total of the
  contributions over all 16,777,216 elements divided by that count, 2^24.

  The kernel totals the contributions block by block (sixteen blocks of 2048 rows of 512 lanes, each block first
  along its lanes and then along its rows) into a running sum; the reference totals the flattened array at once.
  Addition of extended reals is commutative and associative, so the order and the grouping of a total do not matter
  and no finiteness is used. This module states the contribution, the total of the contributions over any index
  set of a shape, and the three re-indexings the proof needs: a total is unchanged by a reshape of its arrays; lane
  sums summed over the rows are the total; and the totals of the sixteen row blocks add up to the total over the rows.
-/
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

namespace Cert.BucketLoss

open Idealize.ShloMosaic Idealize.ShloMosaic.ValueIdx

section Term

variable {F : FTy → Type} [FloatOps F]

/-- The bucket weight of a label: the five selects, the last one outermost. -/
def weight (l : F .f32) : F .f32 :=
  Scalar.select (FloatOps.cmpf .oge l (Scalar.ofBits .f32 0x42700000#32)) (Scalar.ofBits .f32 0x41F00000#32)
  (Scalar.select (IntOp.andi (FloatOps.cmpf .oge l (Scalar.ofBits .f32 0x42200000#32)) (FloatOps.cmpf .olt l (Scalar.ofBits .f32 0x42700000#32))) (Scalar.ofBits .f32 0x41200000#32)
  (Scalar.select (IntOp.andi (FloatOps.cmpf .oge l (Scalar.ofBits .f32 0x41F00000#32)) (FloatOps.cmpf .olt l (Scalar.ofBits .f32 0x42200000#32))) (Scalar.ofBits .f32 0x40A00000#32)
  (Scalar.select (IntOp.andi (FloatOps.cmpf .oge l (Scalar.ofBits .f32 0x41A00000#32)) (FloatOps.cmpf .olt l (Scalar.ofBits .f32 0x41F00000#32))) (Scalar.ofBits .f32 0x40000000#32)
  (Scalar.select (IntOp.andi (FloatOps.cmpf .oge l (Scalar.ofBits .f32 0x00000000#32)) (FloatOps.cmpf .olt l (Scalar.ofBits .f32 0x41A00000#32))) (Scalar.ofBits .f32 0x3F800000#32)
    (Scalar.ofBits .f32 0x00000000#32)))))

/-- One element's contribution: weight(label) * (label - predict) * (label - predict), multiplied left to right. -/
def term (l p : F .f32) : F .f32 :=
  FloatOps.mulf (FloatOps.mulf (weight l) (FloatOps.subf l p)) (FloatOps.subf l p)

end Term

/-- The total of the contributions over every index of a shape. -/
def total {s : Shape} (a b : s.Idx → EReal) : EReal := ∑ i : s.Idx, term (F := Ideal) (a i) (b i)

/-- A reshape lists the same elements under other indices, so the total is the same. -/
theorem total_shapeCast {s t : Shape} (a b : s.Idx → EReal) (h : s.ShapeCasts t) :
    total (shapeCast t a h) (shapeCast t b h) = total a b :=
  Equiv.sum_comp (Shape.reshapeEquiv h) (fun i => term (F := Ideal) (a i) (b i))

/-- The mean both programs compute: the total of the contributions divided by the literal 2^24, the element count. -/
def mean {s : Shape} (a b : s.Idx → EReal) : EReal := Ideal.div (total a b) (Ideal.ofBits .f32 0x4B800000#32)

/-- Sums along one axis, summed over the remaining indices, are the sum over all indices: every index lies over exactly
    one reduced index. -/
theorem sum_lift_eq_sum {s t : Shape} {a : Fin s.rank} (h : s.Reduces [a] t) (v : s.Idx → EReal) :
    ∑ r : t.Idx, ∑ k : Fin (s.size a), v (h.lift r k) = ∑ i : s.Idx, v i := by
  simp only [← h.sum_filter_drop_single v]
  exact Finset.sum_fiberwise Finset.univ h.drop v

/-- The body's two reductions: the lane sums of an [a, b] block, laid out as a column, summed over the rows and laid out
    as a 1x1 entry, are the total of the block. -/
theorem lanes_rows_total {a b : Nat} (W : FVec Ideal ⟨2, ![a, b]⟩ .f32) (z z' : BitVec 32)
    (hl : Shape.Reduces ⟨2, ![a, b]⟩ [1] ⟨1, ![a]⟩) (hφ : FKind.Formats .f32) (hz : z = FKind.add.neutral .f32 hφ)
    (cl : (⟨1, ![a]⟩ : Shape).ShapeCasts ⟨2, ![a, 1]⟩)
    (hr : Shape.Reduces ⟨2, ![a, 1]⟩ [0] ⟨1, ![1]⟩) (hφ' : FKind.Formats .f32) (hz' : z' = FKind.add.neutral .f32 hφ')
    (cr : (⟨1, ![1]⟩ : Shape).ShapeCasts ⟨2, ![1, 1]⟩) (j : (⟨2, ![1, 1]⟩ : Shape).Idx) :
    shapeCast ⟨2, ![1, 1]⟩ (multiReduction .add [0] ⟨1, ![1]⟩
        (shapeCast ⟨2, ![a, 1]⟩ (multiReduction .add [1] ⟨1, ![a]⟩ W z hl hφ hz) cl) z' hr hφ' hz') cr j
      = ∑ y : (⟨2, ![a, b]⟩ : Shape).Idx, W y := by
  show multiReduction .add [0] ⟨1, ![1]⟩ _ z' hr hφ' hz' (Shape.reshapeEquiv cr j) = _
  rw [Ideal.multiReduction_add_total _ _ hr (fun b => by fin_cases b; rfl)]
  rw [show (∑ i, shapeCast ⟨2, ![a, 1]⟩ (multiReduction .add [1] ⟨1, ![a]⟩ W z hl hφ hz) cl i)
      = ∑ r, multiReduction .add [1] ⟨1, ![a]⟩ W z hl hφ hz r from Equiv.sum_comp (Shape.reshapeEquiv cl) _]
  exact (Finset.sum_congr rfl fun r _ => Ideal.multiReduction_add_single W z hl hφ hz r).trans (sum_lift_eq_sum hl W)

/-- Two indices of a rank-2 shape with the same row and the same lane are one index. -/
theorem idx2_ext {n0 n1 : Nat} {i j : (⟨2, ![n0, n1]⟩ : Shape).Idx} (h0 : (i 0).val = (j 0).val)
    (h1 : (i 1).val = (j 1).val) : i = j :=
  funext fun d => match d with
    | ⟨0, _⟩ => Fin.ext h0
    | ⟨1, _⟩ => Fin.ext h1

/-- Sixteen blocks of 2048 rows tile the 32768 rows: if block t's row r is row 2048 t + r of the array, lane for lane,
    the blocks' sums add up to the array's (the number of blocks given as a number N that is 16). -/
theorem sum_blocks {N : Nat} (hN : N = 16) (e : Fin N → (⟨2, ![2048, 512]⟩ : Shape).Idx → (⟨2, ![32768, 512]⟩ : Shape).Idx)
    (h0 : ∀ t y, (e t y 0).val = 2048 * t.val + (y 0).val) (h1 : ∀ t y, (e t y 1).val = (y 1).val)
    (g : (⟨2, ![32768, 512]⟩ : Shape).Idx → EReal) :
    ∑ t : Fin N, ∑ y : (⟨2, ![2048, 512]⟩ : Shape).Idx, g (e t y) = ∑ I : (⟨2, ![32768, 512]⟩ : Shape).Idx, g I := by
  subst hN
  refine (Fintype.sum_prod_type' (fun t y => g (e t y))).symm.trans ?_
  refine Fintype.sum_bijective (fun p : Fin 16 × (⟨2, ![2048, 512]⟩ : Shape).Idx => e p.1 p.2) ⟨?_, ?_⟩ _ _ (fun _ => rfl)
  · rintro ⟨t, y⟩ ⟨t', y'⟩ h
    have h' : e t y = e t' y' := h
    have a0 : (e t y 0).val = (e t' y' 0).val := by rw [h']
    have a1 : (e t y 1).val = (e t' y' 1).val := by rw [h']
    rw [h0, h0] at a0
    rw [h1, h1] at a1
    have b0 : (y 0).val < 2048 := idx2_lt0 y
    have b0' : (y' 0).val < 2048 := idx2_lt0 y'
    have ht : t = t' := Fin.ext (by omega)
    have hy : y = y' := idx2_ext (by omega) a1
    rw [ht, hy]
  · intro I
    have bI : (I 0).val < 32768 := idx2_lt0 I
    refine ⟨(⟨(I 0).val / 2048, by omega⟩,
      ix2 (⟨(I 0).val % 2048, Nat.mod_lt _ (by norm_num)⟩ : Fin 2048) (⟨(I 1).val, idx2_lt1 I⟩ : Fin 512)), ?_⟩
    show e _ _ = I
    refine idx2_ext ?_ ?_
    · rw [h0]; exact Nat.div_add_mod _ _
    · rw [h1]

end Cert.BucketLoss

end
-- ==== Proof.Pieces.lean ====
/-
  What one run of the body leaves in the 1x1 accumulator, case by case, as a value of the two input blocks and of
  what the accumulator held on entry — at any float instance.

  First point: the body stores zero, reads it back, and stores zero + (the block's total).
  Middle points: it stores (what the point before left) + (the block's total).
  Last point: it stores that sum, reads it back, and stores the sum divided by the element count.

  Each is the covering store's payload: the body's loads read the whole staging buffers, and a load of the
  accumulator after a store reads that store's payload.
-/
import proofs.«139462_j833223655948_1_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Cert.KernelIdeal Cert.KernelIdeal.Gen

variable {F : FTy → Type} [FloatOps F]

theorem zero_offsets : (![0, 0] : Fin 2 → Nat) = fun _ => 0 := funext fun a => by fin_cases a <;> rfl

/-- The running sum after a block: the accumulator's contents plus the block's total, as the body computes it from
    the two loaded blocks (the weight selects, the product, the lane sums, the row sum, the add). -/
abbrev step (x0 x1 : Vec F S2048x512 .f32) (acc : Vec F S1x1 .f32) : Vec F S1x1 .f32 :=
  k0_pay1 (k0_pay4 x0) (k0_pay5 x1) (k0_pay6 x0) (k0_pay7 x0) acc

/-- A middle point adds its block's total to what the point before left. -/
theorem middle (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (hc0 : ¬cond0_0 i) (hc1 : ¬cond0_1 i) (x0 x1 : Vec F S2048x512 .f32) (xo : Vec F S1x1 .f32) :
    out0_B_2 c i a1 h1 a2 h2 a3 h3 hc0 hc1 x0 x1 xo = step x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero (S := S1x1) zero_offsets]
  simp only [View.readAt_eq_ld, h1.read_unread, h2.read_unread, h3.read_unread,
    View.ld_unit_zero (S := S2048x512) zero_offsets, View.ld_unit_zero (S := S1x1) zero_offsets]

/-- The first point resets the accumulator to zero and adds its block's total to that. -/
theorem first (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (hc0 : cond0_0 i) (hc1 : ¬cond0_1 i) (x0 x1 : Vec F S2048x512 .f32) :
    out0_A_2 c i a1 h1 a2 h2 a3 h3 hc0 hc1 x0 x1 = step x0 x1 (k0_pay3 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) zero_offsets, View.readCov_unit_zero (S := S1x1) _ zero_offsets]
  simp only [View.readAt_eq_ld, h1.read_unread, h2.read_unread,
    View.ld_unit_zero (S := S2048x512) zero_offsets]

/-- The last point adds its block's total and divides the sum by the element count. -/
theorem last (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (hc0 : ¬cond0_0 i) (hc1 : cond0_1 i) (x0 x1 : Vec F S2048x512 .f32) (xo : Vec F S1x1 .f32) :
    out0_C_2 c i a1 h1 a2 h2 a3 h3 hc0 hc1 x0 x1 xo = k0_pay2 (step x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) zero_offsets, View.readCov_unit_zero (S := S1x1) _ zero_offsets]
  simp only [View.readAt_eq_ld, h1.read_unread, h2.read_unread, h3.read_unread,
    View.ld_unit_zero (S := S2048x512) zero_offsets, View.ld_unit_zero (S := S1x1) zero_offsets]

end Cert.KernelIdeal.Acc

end
-- ==== Proof.KernelValue.lean ====
/-
  What the kernel leaves in its 1x1 result array, at the ideal instance: the mean of the contributions.

  One run of the body adds to the accumulator the total of its block: the product vector is the contribution at each
  element of the two loaded blocks, its lane sums summed over the rows are the block's total. So after point n the
  accumulator holds the total of blocks 0 … n (induction on the point: the first point starts from zero, a middle
  point adds to what the point before left), and the last point leaves the total of all sixteen blocks divided by
  2^24. The accumulator is written back once, after the last point, and its one block is the whole result array.
-/
import proofs.«139462_j833223655948_1_alg».proof.Proof.Spec
import proofs.«139462_j833223655948_1_alg».proof.Proof.Pieces
import Idealize.ShloMosaic.Lib.Pipeline.Value
import Idealize.ShloMosaic.Lib.StableHlo.Run

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.BucketLoss

/-! ## One block -/

section Block

variable {F : FTy → Type} [FloatOps F]

/-- The body recasts each loaded block to its own shape: nothing changes. -/
theorem label_cast (x : Vec F S2048x512 .f32) : k0_pay4 x = x := by unfold k0_pay4; exact shapeCast_self _ _
theorem predict_cast (x : Vec F S2048x512 .f32) : k0_pay5 x = x := by unfold k0_pay5; exact shapeCast_self _ _

/-- The body's product vector: weight * diff * diff over the two loaded blocks. -/
abbrev contrib (x0 x1 : Vec F S2048x512 .f32) : FVec F S2048x512 .f32 :=
  mulf (mulf (select (k0_pay7 x0) (broadcast S2048x512 (Scalar.ofBits .f32 0x41F00000#32)) (k0_pay6 x0))
    (subf (k0_pay4 x0) (k0_pay5 x1))) (subf (k0_pay4 x0) (k0_pay5 x1))

/-- At each element it is that element's contribution: every operation of the chain is elementwise. -/
theorem contrib_apply (x0 x1 : Vec F S2048x512 .f32) (y : S2048x512.Idx) :
    contrib x0 x1 y = term (x0 y) (x1 y) := by
  unfold contrib k0_pay6 k0_pay7
  simp only [label_cast, predict_cast]
  rfl

end Block

/-- One run of the body's arithmetic, at the ideal instance: the accumulator plus the block's total. -/
theorem step_apply (x0 x1 : Vec Ideal S2048x512 .f32) (acc : Vec Ideal S1x1 .f32) (j : S1x1.Idx) :
    step x0 x1 acc j = acc j + total x0 x1 := by
  have e : step x0 x1 acc = addf (shapeCast S1x1 acc shapeCasts_S1x1_S1x1)
      (shapeCast S1x1 (multiReduction .add [0] S1 (shapeCast S2048x1 (multiReduction .add [1] S2048 (contrib x0 x1)
        0x00000000#32 reduces_S2048x512_S2048 (.inl rfl) rfl) shapeCasts_S2048_S2048x1) 0x00000000#32
        reduces_S2048x1_S1 (.inl rfl) rfl) shapeCasts_S1_S1x1) := rfl
  rw [e, addf_apply, shapeCast_self]
  exact congrArg (acc j + ·) ((lanes_rows_total (contrib x0 x1) 0x00000000#32 0x00000000#32 reduces_S2048x512_S2048
    (.inl rfl) rfl shapeCasts_S2048_S2048x1 reduces_S2048x1_S1 (.inl rfl) rfl shapeCasts_S1_S1x1 j).trans
    (Finset.sum_congr rfl fun y _ => contrib_apply x0 x1 y))

/-- The reset stores the extended real zero. -/
theorem reset_apply (j : S1x1.Idx) : k0_pay3 (F := Ideal) j = 0 := by
  show Ideal.ofBits .f32 0x00000000#32 = 0
  exact Ideal.ofBits_zero_f32

/-- The epilogue divides the accumulator by the literal 2^24. -/
theorem mean_apply (v : Vec Ideal S1x1 .f32) (j : S1x1.Idx) :
    k0_pay2 v j = Ideal.div (v j) (Ideal.ofBits .f32 0x4B800000#32) := by
  unfold k0_pay2
  rw [shapeCast_self]
  rfl

/-! ## The accumulator, point by point -/

variable (m : (ℓ : Loc nD τ sig) → Buf (Elt Ideal) ℓ)

/-- The two input blocks at point t, at their literal type. -/
abbrev labelBlock (c : Dev nD) (t : Fin cfg0.N) : Vec Ideal S2048x512 .f32 := iblk m c 0 t
abbrev predictBlock (c : Dev nD) (t : Fin cfg0.N) : Vec Ideal S2048x512 .f32 := iblk m c 1 t

/-- The total of the contributions of block t. -/
def blockTotal (c : Dev nD) (t : Fin cfg0.N) : EReal := total (labelBlock m c t) (predictBlock m c t)

/-- The total of the contributions of blocks 0 … n. -/
def running (c : Dev nD) (n : ℕ) : EReal :=
  ∑ t ∈ Finset.univ.filter (fun t : Fin cfg0.N => t.val ≤ n), blockTotal m c t

theorem running_zero (c : Dev nD) (h : 0 < cfg0.N) : running m c 0 = blockTotal m c ⟨0, h⟩ := by
  unfold running
  have e : Finset.univ.filter (fun t : Fin cfg0.N => t.val ≤ 0) = {⟨0, h⟩} := by
    ext t
    simp only [Finset.mem_filter, Finset.mem_univ, true_and, Finset.mem_singleton, Fin.ext_iff]
    omega
  rw [e, Finset.sum_singleton]

theorem running_succ (c : Dev nD) (n : ℕ) (h : n + 1 < cfg0.N) :
    running m c (n + 1) = running m c n + blockTotal m c ⟨n + 1, h⟩ := by
  unfold running
  have e : Finset.univ.filter (fun t : Fin cfg0.N => t.val ≤ n + 1)
      = insert ⟨n + 1, h⟩ (Finset.univ.filter (fun t : Fin cfg0.N => t.val ≤ n)) := by
    ext t
    simp only [Finset.mem_filter, Finset.mem_univ, true_and, Finset.mem_insert, Fin.ext_iff]
    omega
  rw [e, Finset.sum_insert (by simp only [Finset.mem_filter, Finset.mem_univ, true_and]; omega), add_comm]

/-- Before the last point the accumulator holds the total of the blocks so far: by induction on the point. -/
theorem acc_running (c : Dev nD) : ∀ (n : ℕ) (h : n < cfg0.N), n < 15 → ∀ j : S1x1.Idx,
    outsAt0 m c n h j = running m c n
  | 0, h, _, j => by
    refine (congrFun ((outsAt0_A m c ⟨0, h⟩ rfl (by dsimp only; omega)).trans
      (first c (grid0.coords ⟨0, h⟩) (ms0_0 ⟨0, h⟩) (hs0_0 ⟨0, h⟩) (ms0_1 ⟨0, h⟩) (hs0_1 ⟨0, h⟩) (ms0_2 ⟨0, h⟩)
        (hs0_2 ⟨0, h⟩) _ _ (labelBlock m c ⟨0, h⟩) (predictBlock m c ⟨0, h⟩))) j).trans ?_
    rw [step_apply, reset_apply, zero_add, running_zero m c h]
    rfl
  | n + 1, h, h15, j => by
    have hN : cfg0.N = 16 := N_0
    have h0 : ¬(⟨n + 1, h⟩ : Fin cfg0.N).val % 16 = 0 := by dsimp only; omega
    have h1 : ¬(⟨n + 1, h⟩ : Fin cfg0.N).val % 16 = 15 := by dsimp only; omega
    refine (congrFun ((outsAt0_B m c ⟨n + 1, h⟩ h0 h1).trans
      (middle c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) _ _ (labelBlock m c ⟨n + 1, h⟩) (predictBlock m c ⟨n + 1, h⟩)
        (outsAt0 m c n (Nat.lt_of_succ_lt h)))) j).trans ?_
    rw [step_apply, acc_running c n (Nat.lt_of_succ_lt h) (by omega) j, running_succ m c n h]
    rfl

/-- The mean: the total of all sixteen blocks divided by 2^24. -/
def meanValue (c : Dev nD) : EReal := Ideal.div (running m c 15) (Ideal.ofBits .f32 0x4B800000#32)

/-- The last point leaves the mean. -/
theorem last_point (c : Dev nD) (h : 15 < cfg0.N) (j : S1x1.Idx) : outsAt0 m c 15 h j = meanValue m c := by
  have h0 : ¬(⟨15, h⟩ : Fin cfg0.N).val % 16 = 0 := by dsimp only; omega
  have h1 : (⟨15, h⟩ : Fin cfg0.N).val % 16 = 15 := rfl
  refine (congrFun ((outsAt0_C m c ⟨15, h⟩ h0 h1).trans
    (last c (grid0.coords ⟨15, h⟩) (ms0_0 ⟨15, h⟩) (hs0_0 ⟨15, h⟩) (ms0_1 ⟨15, h⟩) (hs0_1 ⟨15, h⟩)
      (ms0_2 ⟨15, h⟩) (hs0_2 ⟨15, h⟩) _ _ (labelBlock m c ⟨15, h⟩) (predictBlock m c ⟨15, h⟩)
      (outsAt0 m c 14 (Nat.lt_of_succ_lt h)))) j).trans ?_
  rw [mean_apply, step_apply, acc_running m c 14 (Nat.lt_of_succ_lt h) (by decide) j]
  unfold meanValue
  rw [running_succ m c 14 h]
  rfl

end Cert.KernelIdeal.Acc

end
-- ==== Proof.KernelRun.lean ====
/-
  From the accumulator to the program's result, at the ideal instance.

  The accumulator is written back once, after the last point, and its one block is the whole 1x1 result array, so
  that array ends holding the mean of the sixteen block totals; the host then reshapes it to a scalar. Block t of
  either input is rows 2048 t … 2048 t + 2047 of the reshaped [32768, 512] array, so the sixteen block totals add up
  to the total over that array, which is the total over the original four-axis array: a reshape only renames indices.
-/
import proofs.«139462_j833223655948_1_alg».proof.Proof.KernelValue

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.BucketLoss

variable (m : (ℓ : Loc nD τ sig) → Buf (Elt Ideal) ℓ) (ρ : Dev nD → PrngReg)

/-! ## The result array -/

/-- The 1x1 result array's final contents: the mean at its one index. -/
abbrev result (c : Dev nD) : Buf (Elt Ideal) ((c : Thread nD τ).loc main_v2) := fun _ => meanValue m c

/-- The accumulator's window at the last point: its block sits at the origin and has extent one on both axes. -/
theorem acc_window : (win0_2.index t0_15 0 * win0_2.size 0 = 0 ∧ win0_2.xsize (grid0.coords t0_15) 0 = 1)
    ∧ (win0_2.index t0_15 1 * win0_2.size 1 = 0 ∧ win0_2.xsize (grid0.coords t0_15) 1 = 1) := by decide +kernel

/-- The one write-back, after the last point, writes the mean. -/
theorem flushed_eq (c : Dev nD) (t : Fin cfg0.N) (hf : (cfg0.win 2).flush t = true) :
    (dats m 0 c).flushed 2 t = ((cfg0.win 2).blk t).view.read (Elt Ideal) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  funext j
  rw [View.read_apply]
  exact last_point m c _ _

/-- Its block covers the array, so the array ends holding the mean. -/
theorem final_o (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v2).slice (win0_2.rect t0_15)).set
      rw [View.set_slice_whole, Rect.mem_set_unit]
      have b0 : (i 0 : Nat) < 1 := (i 0).isLt
      have b1 : (i 1 : Nat) < 1 := (i 1).isLt
      obtain ⟨⟨o0, e0⟩, ⟨o1, e1⟩⟩ := acc_window
      intro a
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [o0, e0]; omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [o1, e1]; omega⟩

/-! ## The blocks are row ranges of the reshaped arrays -/

/-- Row r, lane l of block t is row 2048 t + r, lane l of the [32768, 512] array. -/
abbrev rowOf (t : Fin cfg0.N) (y : S2048x512.Idx) : S32768x512.Idx :=
  ix2 (⟨2048 * t.val + (y 0).val, by
      have := t.isLt; have hN : cfg0.N = 16 := N_0; have := idx2_lt0 y; omega⟩ : Fin 32768)
    (⟨(y 1).val, idx2_lt1 y⟩ : Fin 512)

/-- Both input windows step one block of rows per point and never move along the lanes. -/
theorem win_index : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

theorem label_read (c : Dev nD) (t : Fin cfg0.N) (y : S2048x512.Idx) :
    labelBlock m c t y = V m c main_v0 (rowOf t y) := by
  show iblk m c 0 t y = V m c main_v0 (rowOf t y)
  unfold iblk
  rw [View.read_apply]
  show V m c main_v0 _ = V m c main_v0 _
  congr 1
  funext a
  apply Fin.ext
  match a with
  | ⟨0, _⟩ => show win0_0.index t 0 * 2048 + 1 * (y 0).val = 2048 * t.val + (y 0).val; rw [(win_index t).1.1]; omega
  | ⟨1, _⟩ => show win0_0.index t 1 * 512 + 1 * (y 1).val = (y 1).val; rw [(win_index t).1.2]; omega

theorem predict_read (c : Dev nD) (t : Fin cfg0.N) (y : S2048x512.Idx) :
    predictBlock m c t y = V m c main_v1 (rowOf t y) := by
  show iblk m c 1 t y = V m c main_v1 (rowOf t y)
  unfold iblk
  rw [View.read_apply]
  show V m c main_v1 _ = V m c main_v1 _
  congr 1
  funext a
  apply Fin.ext
  match a with
  | ⟨0, _⟩ => show win0_1.index t 0 * 2048 + 1 * (y 0).val = 2048 * t.val + (y 0).val; rw [(win_index t).2.1]; omega
  | ⟨1, _⟩ => show win0_1.index t 1 * 512 + 1 * (y 1).val = (y 1).val; rw [(win_index t).2.2]; omega

/-- The region finds each input reshaped to [32768, 512] by the host. -/
theorem label_array (c : Dev nD) : (V m c main_v0 : S32768x512.Idx → EReal)
    = shapeCast S32768x512 (m ((c : Thread nD τ).loc main_arg0)) shapeCasts_S64x1x512x512_S32768x512 := by
  show StableHlo.after hostOps0 (fun b => m (c, b)) (Proc.devRef .tc main_v0) = _
  after_results
  rfl

theorem predict_array (c : Dev nD) : (V m c main_v1 : S32768x512.Idx → EReal)
    = shapeCast S32768x512 (m ((c : Thread nD τ).loc main_arg1)) shapeCasts_S64x1x512x512_S32768x512 := by
  show StableHlo.after hostOps0 (fun b => m (c, b)) (Proc.devRef .tc main_v1) = _
  after_results
  rfl

/-- The sixteen block totals add up to the total over the original arrays. -/
theorem running_all (c : Dev nD) :
    running m c 15 = total (s := S64x1x512x512) (m ((c : Thread nD τ).loc main_arg0)) (m ((c : Thread nD τ).loc main_arg1)) := by
  have hN : cfg0.N = 16 := N_0
  unfold running
  rw [Finset.filter_true_of_mem (fun t _ => by have := t.isLt; omega)]
  have hb : ∀ t : Fin cfg0.N, blockTotal m c t
      = ∑ y : S2048x512.Idx, term (F := Ideal) (V m c main_v0 (rowOf t y)) (V m c main_v1 (rowOf t y)) := fun t => by
    unfold blockTotal total
    exact Finset.sum_congr rfl fun y _ => by rw [label_read, predict_read]
  rw [Finset.sum_congr rfl fun t _ => hb t]
  rw [sum_blocks hN rowOf (fun t y => rfl) (fun t y => rfl)
    (fun I => term (F := Ideal) (V m c main_v0 I) (V m c main_v1 I))]
  show total (s := S32768x512) (V m c main_v0) (V m c main_v1) = _
  rw [label_array, predict_array, total_shapeCast]

/-! ## The host's last line, and the run -/

/-- After the region the host reshapes the 1x1 result array to a scalar: the mean. -/
theorem tail_eq (c : Dev nD) :
    Pipeline.afterTail₀ cfgs (dats m) 0 (V0 m) [hostOps1] c main_v3 = fun _ => meanValue m c := by
  unfold Pipeline.afterTail₀
  show StableHlo.after hostOps1 _ (Proc.devRef .tc main_v3) = _
  after_results
  have e := (Pipeline.withArrays_arr spec0 launch0.win.arr_inj c (V0 m c)
    (fun w => (dats m 0 c).arrAt w cfg0.N) 2).trans (final_o m c)
  funext i
  exact congrArg (fun X : Buf (Elt Ideal) ((c : Thread nD τ).loc main_v2) => shapeCast S_ X shapeCasts_S1x1_S_ i) e

/-- The mean of the sixteen block totals is the mean over the original arrays. -/
theorem meanValue_eq (c : Dev nD) : meanValue m c
    = mean (s := S64x1x512x512) (m ((c : Thread nD τ).loc main_arg0)) (m ((c : Thread nD τ).loc main_arg1)) := by
  unfold meanValue mean
  rw [running_all]

/-- The run, read: every weakly fair execution ends with the scalar result at the mean over the argument arrays, and
    the arguments unchanged. -/
theorem run : θ_run defs (onTc (τ := τ) (main (F := Ideal))) ⟨m, fun _ => 0, ρ⟩ fun r => ∀ c : Dev nD,
      r.2.mem ((c.tc : Thread nD τ).loc main_v3) = (fun _ => mean (s := S64x1x512x512)
          (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((tail_eq m c).trans (funext fun _ => meanValue_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.RefValue.lean ====
/-
  What the reference computes, at the ideal instance: the mean of the contributions.

  The reference flattens both arrays, forms weight * diff * diff elementwise (its five bucket selects, each a
  broadcast scalar chosen under a mask, are the same selects as the kernel's), sums the flat array from zero and
  divides by 2^24. Read at an element the product vector is that element's contribution; the sum over the flat
  array is the total over the original four-axis array, a reshape only renaming the indices; and zero plus a total
  is the total.
-/
import proofs.«139462_j833223655948_1_alg».proof.Proof.Spec
import proofs.«139462_j833223655948_1_alg».proof.Proof.Gen.ReferenceIdeal.Read
import Idealize.ShloMosaic.Lib.IdealHost

noncomputable section

namespace Cert.ReferenceIdeal.Mean

open Idealize.ShloMosaic Idealize.ShloMosaic.ValueIdx
open Cert.ReferenceIdeal Cert.ReferenceIdeal.Gen Cert.ReferenceIdeal.Read Cert.BucketLoss

/-- The reference's product vector at a flat index is the contribution of the two flattened arrays there. -/
theorem contrib_apply (x0 x1 : (⟨S64x1x512x512, .f32⟩ : BufTy).Contents (Elt Ideal)) (k : S16777216.Idx) :
    val_main_v32 (F := Ideal) x0 x1 k
      = term (F := Ideal) (val_main_v0 (F := Ideal) x0 k) (val_main_v1 (F := Ideal) x1 k) := rfl

/-- The reference's result is the mean. -/
theorem result_apply (x0 x1 : (⟨S64x1x512x512, .f32⟩ : BufTy).Contents (Elt Ideal)) (i : S_.Idx) :
    val_main_v34 (F := Ideal) x0 x1 i = mean (s := S64x1x512x512) x0 x1 := by
  rw [val_main_v34_apply, val_main_v33_apply, val_main_cst_14_apply, val_main_cst_15_apply, Ideal.hostDivf_def,
    Ideal.ofBits_def, Ideal.ofBits_def, Ideal.ofBits_zero_f32, zero_add]
  unfold mean
  refine congrArg (fun s => Ideal.div s (Ideal.ofBits .f32 0x4B800000#32)) ?_
  refine (Finset.sum_congr rfl fun k _ => contrib_apply x0 x1 k).trans ?_
  exact total_shapeCast x0 x1 shapeCasts_S64x1x512x512_S16777216

end Cert.ReferenceIdeal.Mean

end
-- ==== Proof.lean ====
/-
  Bucket-weighted squared error, averaged: the kernel against its reference.

  Both programs take label and predict, f32[64, 1, 512, 512], give each element the weight of its label's bucket
  (1 on [0,20), 2 on [20,30), 5 on [30,40), 10 on [40,60), 30 from 60 on, 0 below zero), form
  weight * (label - predict) * (label - predict), total it over all 2^24 elements and divide by 2^24.
  The reference flattens the arrays and totals them with one reduction. The kernel views them as [32768, 512],
  walks sixteen blocks of 2048 rows, totals each block along its lanes and then its rows into a 1x1 accumulator that
  is reset at the first block and divided by 2^24 after the last, and the host reshapes that 1x1 array to a scalar.

  At the ideal instance a float is an extended real, and addition of extended reals is commutative and associative,
  so the kernel's grouping of the total by blocks, rows and lanes is the reference's flat total: both results are
  (total of the contributions) / 2^24 with the same literals throughout. No finiteness is used.

  The frames of the two kernel programs are the generated ones; the reference's frame is its generated run with the
  result dropped. The idealized kernel is the kernel's own text read at the ideal instance, no operation rewritten,
  so the idealization claim has nothing to prove.
-/
import proofs.«139462_j833223655948_1_alg».proof.Defs
import proofs.«139462_j833223655948_1_alg».proof.Proof.Gen.Kernel
import proofs.«139462_j833223655948_1_alg».proof.Proof.Gen.Kernel.Skeleton
import proofs.«139462_j833223655948_1_alg».proof.Proof.Gen.Kernel.Launch
import proofs.«139462_j833223655948_1_alg».proof.Proof.Gen.Kernel.Points
import proofs.«139462_j833223655948_1_alg».proof.Proof.Gen.Kernel.Frame
import proofs.«139462_j833223655948_1_alg».proof.Proof.Gen.KernelIdeal
import proofs.«139462_j833223655948_1_alg».proof.Proof.Gen.KernelIdeal.Skeleton
import proofs.«139462_j833223655948_1_alg».proof.Proof.Gen.KernelIdeal.Launch
import proofs.«139462_j833223655948_1_alg».proof.Proof.Gen.KernelIdeal.Points
import proofs.«139462_j833223655948_1_alg».proof.Proof.Gen.KernelIdeal.Frame
import proofs.«139462_j833223655948_1_alg».proof.Proof.Gen.ReferenceIdeal
import proofs.«139462_j833223655948_1_alg».proof.Proof.Gen.ReferenceIdeal.Run
import proofs.«139462_j833223655948_1_alg».proof.Proof.Gen.ReferenceIdeal.Read
import proofs.«139462_j833223655948_1_alg».proof.Proof.Gen.Pre_finite_inputs
import proofs.«139462_j833223655948_1_alg».proof.Proof.KernelRun
import proofs.«139462_j833223655948_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for its idealization: nothing to prove. -/
theorem preserves : Cert.preserves_Kernel_KernelIdeal := trivial

/-- Both programs end with the mean of the contributions over the argument arrays: the kernel's scalar holds it
    (the accumulated block totals, divided, reshaped), and the reference's run term is it (its flat total, divided)
    of arguments that agree. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]
  funext i
  exact Cert.ReferenceIdeal.Mean.result_apply _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
